-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v25_0)) (v2 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v25_0) = v1 c
          ∧ r.2.mem ((c.tc : Thread Cert.KernelIdeal.nD Cert.KernelIdeal.τ).loc Cert.KernelIdeal.main_v47) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v109) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128 .f32) (main_arg7 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S2000x128 : Shape := ⟨2, ![2000, 128]⟩

abbrev nBuf : Space → Nat
  | .hbm => 69
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S50000x128, .f32⟩
  | .hbm, ⟨23, _⟩ => ⟨S600000x1, .i32⟩
  | .hbm, ⟨24, _⟩ => ⟨S50000x128, .f32⟩
  | .hbm, ⟨25, _⟩ => ⟨S_, .f32⟩
  | .hbm, ⟨26, _⟩ => ⟨S600000x1, .f32⟩
  | .hbm, ⟨27, _⟩ => ⟨S_, .f32⟩
  | .hbm, ⟨28, _⟩ => ⟨S50000x1, .f32⟩
  | .hbm, ⟨29, _⟩ => ⟨S600000x1, .i32⟩
  | .hbm, ⟨30, _⟩ => ⟨S50000x1, .f32⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x128, .f32⟩
  | .hbm, ⟨35, _⟩ => ⟨S50000x128, .f32⟩
  | .hbm, ⟨36, _⟩ => ⟨S128x128, .f32⟩
  | .hbm, ⟨37, _⟩ => ⟨S128x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .i32⟩
  | .hbm, ⟨42, _⟩ => ⟨S600000, .i32⟩
  | .hbm, ⟨43, _⟩ => ⟨S600000, .i1⟩
  | .hbm, ⟨44, _⟩ => ⟨S_, .i32⟩
  | .hbm, ⟨45, _⟩ => ⟨S600000, .i32⟩
  | .hbm, ⟨46, _⟩ => ⟨S600000, .i32⟩
  | .hbm, ⟨47, _⟩ => ⟨S600000, .i32⟩
  | .hbm, ⟨48, _⟩ => ⟨S600000x1, .i32⟩
  | .hbm, ⟨49, _⟩ => ⟨S600000x128, .f32⟩
  | .hbm, ⟨50, _⟩ => ⟨S_, .f32⟩
  | .hbm, ⟨51, _⟩ => ⟨S50000x128, .f32⟩
  | .hbm, ⟨52, _⟩ => ⟨S600000x1, .i32⟩
  | .hbm, ⟨53, _⟩ => ⟨S50000x128, .f32⟩
  | .hbm, ⟨54, _⟩ => ⟨S_, .f32⟩
  | .hbm, ⟨55, _⟩ => ⟨S600000x1, .f32⟩
  | .hbm, ⟨56, _⟩ => ⟨S_, .f32⟩
  | .hbm, ⟨57, _⟩ => ⟨S50000x1, .f32⟩
  | .hbm, ⟨58, _⟩ => ⟨S600000x1, .i32⟩
  | .hbm, ⟨59, _⟩ => ⟨S50000x1, .f32⟩
  | .hbm, ⟨60, _⟩ => ⟨S_, .f32⟩
  | .hbm, ⟨61, _⟩ => ⟨S50000x1, .f32⟩
  | .hbm, ⟨62, _⟩ => ⟨S50000x1, .f32⟩
  | .hbm, ⟨63, _⟩ => ⟨S50000x128, .f32⟩
  | .hbm, ⟨64, _⟩ => ⟨S50000x128, .f32⟩
  | .hbm, ⟨65, _⟩ => ⟨S128x128, .f32⟩
  | .hbm, ⟨66, _⟩ => ⟨S128x128, .f32⟩
  | .hbm, ⟨67, _⟩ => ⟨S1x128, .f32⟩
  | .hbm, ⟨68, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S2000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25_1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩

abbrev nBuf : Space → Nat
  | .hbm => 146
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S1x600000, .i32⟩
  | 9 => ⟨S600000, .i32⟩
  | 10 => ⟨S1x600000, .i32⟩
  | 11 => ⟨S600000, .i32⟩
  | 12 => ⟨S_, .i32⟩
  | 13 => ⟨S600000, .i32⟩
  | 14 => ⟨S600000, .i1⟩
  | 15 => ⟨S_, .i32⟩
  | 16 => ⟨S600000, .i32⟩
  | 17 => ⟨S600000, .i32⟩
  | 18 => ⟨S600000, .i32⟩
  | 19 => ⟨S600000x1, .i32⟩
  | 20 => ⟨S600000x128, .f32⟩
  | 21 => ⟨S_, .f32⟩
  | 22 => ⟨S50000x128, .f32⟩
  | 23 => ⟨S600000x1, .i32⟩
  | 24 => ⟨S50000x128, .f32⟩
  | 25 => ⟨S_, .f32⟩
  | 26 => ⟨S600000x1, .f32⟩
  | 27 => ⟨S_, .f32⟩
  | 28 => ⟨S50000x1, .f32⟩
  | 29 => ⟨S600000x1, .i32⟩
  | 30 => ⟨S50000x1, .f32⟩
  | 31 => ⟨S_, .f32⟩
  | 32 => ⟨S50000x1, .f32⟩
  | 33 => ⟨S50000x1, .f32⟩
  | 34 => ⟨S50000x128, .f32⟩
  | 35 => ⟨S50000x128, .f32⟩
  | 36 => ⟨S128x128, .f32⟩
  | 37 => ⟨S50000x128, .f32⟩
  | 38 => ⟨S1x128, .f32⟩
  | 39 => ⟨S50000x128, .f32⟩
  | 40 => ⟨S50000x128, .f32⟩
  | 41 => ⟨S128x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S_, .f32⟩
  | 57 => ⟨S50000x128, .f32⟩
  | 58 => ⟨S600000x1, .i32⟩
  | 59 => ⟨S50000x128, .f32⟩
  | 60 => ⟨S_, .f32⟩
  | 61 => ⟨S600000x1, .f32⟩
  | 62 => ⟨S_, .f32⟩
  | 63 => ⟨S50000x1, .f32⟩
  | 64 => ⟨S600000x1, .i32⟩
  | 65 => ⟨S50000x1, .f32⟩
  | 66 => ⟨S_, .f32⟩
  | 67 => ⟨S50000x1, .f32⟩
  | 68 => ⟨S50000x1, .f32⟩
  | 69 => ⟨S50000x128, .f32⟩
  | 70 => ⟨S50000x128, .f32⟩
  | 71 => ⟨S128x128, .f32⟩
  | 72 => ⟨S50000x128, .f32⟩
  | 73 => ⟨S1x128, .f32⟩
  | 74 => ⟨S50000x128, .f32⟩
  | 75 => ⟨S50000x128, .f32⟩
  | 76 => ⟨S128x128, .f32⟩
  | 77 => ⟨S50000x128, .f32⟩
  | 78 => ⟨S50000x128, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .f32⟩
  | 88 => ⟨S_, .f32⟩
  | 89 => ⟨S50000x128, .f32⟩
  | 90 => ⟨S600000x1, .i32⟩
  | 91 => ⟨S50000x128, .f32⟩
  | 92 => ⟨S_, .f32⟩
  | 93 => ⟨S600000x1, .f32⟩
  | 94 => ⟨S_, .f32⟩
  | 95 => ⟨S50000x1, .f32⟩
  | 96 => ⟨S600000x1, .i32⟩
  | 97 => ⟨S50000x1, .f32⟩
  | 98 => ⟨S_, .f32⟩
  | 99 => ⟨S50000x1, .f32⟩
  | 100 => ⟨S50000x1, .f32⟩
  | 101 => ⟨S50000x128, .f32⟩
  | 102 => ⟨S50000x128, .f32⟩
  | 103 => ⟨S128x128, .f32⟩
  | 104 => ⟨S50000x128, .f32⟩
  | 105 => ⟨S1x128, .f32⟩
  | 106 => ⟨S50000x128, .f32⟩
  | 107 => ⟨S50000x128, .f32⟩
  | 108 => ⟨S128x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S600000x128, .f32⟩
  | 123 => ⟨S_, .f32⟩
  | 124 => ⟨S50000x128, .f32⟩
  | 125 => ⟨S600000x1, .i32⟩
  | 126 => ⟨S50000x128, .f32⟩
  | 127 => ⟨S_, .f32⟩
  | _ => ⟨S50000x128, .f32⟩

abbrev hbmTy0_1 (i : Nat) : BufTy := match i % 128 with
  | 0 => ⟨S600000x1, .f32⟩
  | 1 => ⟨S_, .f32⟩
  | 2 => ⟨S50000x1, .f32⟩
  | 3 => ⟨S600000x1, .i32⟩
  | 4 => ⟨S50000x1, .f32⟩
  | 5 => ⟨S_, .f32⟩
  | 6 => ⟨S50000x1, .f32⟩
  | 7 => ⟨S50000x1, .f32⟩
  | 8 => ⟨S50000x128, .f32⟩
  | 9 => ⟨S50000x128, .f32⟩
  | 10 => ⟨S128x128, .f32⟩
  | 11 => ⟨S50000x128, .f32⟩
  | 12 => ⟨S1x128, .f32⟩
  | 13 => ⟨S50000x128, .f32⟩
  | 14 => ⟨S50000x128, .f32⟩
  | 15 => ⟨S128x128, .f32⟩
  | 16 => ⟨S50000x128, .f32⟩
  | 17 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_cst : Ref sig .tc := ⟨.hbm, 44, rfl⟩
abbrev main_call0_v0 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_cst_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_15 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_call1_cst : Ref sig .tc := ⟨.hbm, 111, rfl⟩
abbrev main_call1_v0 : Ref sig .tc := ⟨.hbm, 112, rfl⟩
abbrev main_v83 : Ref sig .tc := ⟨.hbm, 113, rfl⟩
abbrev main_c_16 : Ref sig .tc := ⟨.hbm, 114, rfl⟩
abbrev main_v84 : Ref sig .tc := ⟨.hbm, 115, rfl⟩
abbrev main_v85 : Ref sig .tc := ⟨.hbm, 116, rfl⟩
abbrev main_c_17 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_cst_18 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_19 : Ref sig .tc := ⟨.hbm, 127, rfl⟩
abbrev main_v94 : Ref sig .tc := ⟨.hbm, 128, rfl⟩
abbrev main_cst_20 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_21 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S600000x1 : S_.BroadcastsInDim S600000x1 (![] : Fin 0 → Fin S600000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x1_S600000x1_S600000x1_1_0_0_1_wf : ScatterDims.WF S50000x1 S600000x1 S600000x1 [1] [0] [0] 1
  dot_S50000x128_S128x128_S50000x128_1_0_0_1_n_n_wf : DotDims.WF S50000x128 S128x128 S50000x128 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x1_S600000x1_S600000x1_1_0_0_1 : ScatterDims S50000x1 S600000x1 S600000x1 where
  updateWindowDims := [1]
  insertedWindowDims := [0]
  scatterDimsToOperandDims := [0]
  indexVectorDim := 1
  wf := scatter_S50000x1_S600000x1_S600000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.SageSpec.lean ====
/-
  One layer of a mean-aggregating graph convolution, as a function of arrays over the extended reals.

  For node features x : [R, 128], aggregated neighbour features a : [R, 128], two weight matrices already
  transposed, wl wr : [128, 128] (contraction index first), and a bias row b : [1, 128], the layer's dense part is

      combine a x wl wr b (p, q) = (∑ k, a (p, k) · wl (k, q)  +  ∑ k, x (p, k) · wr (k, q))  +  b (0, q).

  Each row of the result depends only on the same row of a and of x, so the result restricted to a band of rows
  is the same function of the two operands restricted to that band.  The sum of three terms may be taken in either
  grouping: addition on the extended reals is commutative and associative, with no finiteness needed.

  A matrix product into a zero accumulator, and a plain contraction with no accumulator, are both the plain sum
  over the shared index (the re-indexing is the general lemma on contraction sums).
-/
import Idealize.ShloMosaic.PureOps.Ideal
import Idealize.ShloMosaic.PureOps.Ideal.Laws
import Idealize.ShloMosaic.Lib.ValueIdx
import proofs.«147235_j59133109731936_1_alg».proof.Proof.LibPlainDot

noncomputable section

namespace Sage

open Idealize.ShloMosaic Idealize.ShloMosaic.ValueIdx

/-- The dense part of one layer: neighbours' mean times wl, plus own features times wr, plus the bias row. -/
def combine {R : Nat} (a x : (⟨2, ![R, 128]⟩ : Shape).Idx → EReal)
    (wl wr : (⟨2, ![128, 128]⟩ : Shape).Idx → EReal) (b : (⟨2, ![1, 128]⟩ : Shape).Idx → EReal) :
    (⟨2, ![R, 128]⟩ : Shape).Idx → EReal :=
  fun j => (∑ k : Fin 128, a (ix2 (j 0) k) * wl (ix2 k (j 1)) + ∑ k : Fin 128, x (ix2 (j 0) k) * wr (ix2 k (j 1)))
    + b (ix2 (0 : Fin 1) (j 1))

/-- The positive part, entry by entry. -/
def relu {s : Shape} (v : s.Idx → EReal) : s.Idx → EReal := fun j => max (v j) 0

theorem combine_ix2 {R : Nat} (a x : (⟨2, ![R, 128]⟩ : Shape).Idx → EReal)
    (wl wr : (⟨2, ![128, 128]⟩ : Shape).Idx → EReal) (b : (⟨2, ![1, 128]⟩ : Shape).Idx → EReal) (p : Fin R) (q : Fin 128) :
    combine a x wl wr b (ix2 p q)
      = (∑ k : Fin 128, a (ix2 p k) * wl (ix2 k q) + ∑ k : Fin 128, x (ix2 p k) * wr (ix2 k q)) + b (ix2 (0 : Fin 1) q) := rfl

/-- The same three terms grouped with the bias in the middle. -/
theorem combine_ix2' {R : Nat} (a x : (⟨2, ![R, 128]⟩ : Shape).Idx → EReal)
    (wl wr : (⟨2, ![128, 128]⟩ : Shape).Idx → EReal) (b : (⟨2, ![1, 128]⟩ : Shape).Idx → EReal) (p : Fin R) (q : Fin 128) :
    combine a x wl wr b (ix2 p q)
      = (∑ k : Fin 128, a (ix2 p k) * wl (ix2 k q) + b (ix2 (0 : Fin 1) q)) + ∑ k : Fin 128, x (ix2 p k) * wr (ix2 k q) := by
  rw [combine_ix2]; exact add_right_comm _ _ _

/-- A row band of the result is the layer applied to the row bands of the two row-wise operands: if a' and x' are
    a and x read at rows shifted by o, then combine of a', x' at row p is combine of a, x at row o + p. -/
theorem combine_band {R R' : Nat} (a x : (⟨2, ![R, 128]⟩ : Shape).Idx → EReal) (a' x' : (⟨2, ![R', 128]⟩ : Shape).Idx → EReal)
    (wl wr : (⟨2, ![128, 128]⟩ : Shape).Idx → EReal) (b : (⟨2, ![1, 128]⟩ : Shape).Idx → EReal)
    (p' : Fin R') (p : Fin R) (q : Fin 128)
    (ha : ∀ k : Fin 128, a' (ix2 p' k) = a (ix2 p k)) (hx : ∀ k : Fin 128, x' (ix2 p' k) = x (ix2 p k)) :
    combine a' x' wl wr b (ix2 p' q) = combine a x wl wr b (ix2 p q) := by
  rw [combine_ix2, combine_ix2]
  simp only [ha, hx]

/-- The layer function's value at an index depends only on the row of the two row-wise operands, the column of the
    two weight matrices and the bias entry it reads: if those agree, the values agree.  (A band of rows of the
    result is the layer function of the same band of the operands: the case where the primed operands are bands.) -/
theorem combine_eq_of {R R' : Nat} (a' x' : (⟨2, ![R', 128]⟩ : Shape).Idx → EReal)
    (wl' wr' : (⟨2, ![128, 128]⟩ : Shape).Idx → EReal) (b' : (⟨2, ![1, 128]⟩ : Shape).Idx → EReal)
    (a x : (⟨2, ![R, 128]⟩ : Shape).Idx → EReal)
    (wl wr : (⟨2, ![128, 128]⟩ : Shape).Idx → EReal) (b : (⟨2, ![1, 128]⟩ : Shape).Idx → EReal)
    (j' : (⟨2, ![R', 128]⟩ : Shape).Idx) (j : (⟨2, ![R, 128]⟩ : Shape).Idx)
    (ha : ∀ k : Fin 128, a' (ix2 (j' 0) k) = a (ix2 (j 0) k)) (hx : ∀ k : Fin 128, x' (ix2 (j' 0) k) = x (ix2 (j 0) k))
    (hwl : ∀ k : Fin 128, wl' (ix2 k (j' 1)) = wl (ix2 k (j 1))) (hwr : ∀ k : Fin 128, wr' (ix2 k (j' 1)) = wr (ix2 k (j 1)))
    (hb : b' (ix2 (0 : Fin 1) (j' 1)) = b (ix2 (0 : Fin 1) (j 1))) :
    combine a' x' wl' wr' b' j' = combine a x wl wr b j := by
  unfold combine
  simp only [ha, hx, hwl, hwr, hb]

variable {R K C : Nat}

/-- A matrix product into the zero accumulator, at (p, q), is the plain sum over the shared index. -/
theorem matmul_zero_plain {φ₁ φ₂ : FTy} (d : DotDims ⟨2, ![R, K]⟩ ⟨2, ![K, C]⟩ ⟨2, ![R, C]⟩) (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ φ₁) (r : FVec Ideal ⟨2, ![K, C]⟩ φ₂) (p : Fin R) (q : Fin C) :
    FloatOps.matmul d prec l r (constant ⟨2, ![R, C]⟩ .f32 0x00000000#32) (ix2 p q) = ∑ k : Fin K, l (ix2 p k) * r (ix2 k q) := by
  rw [Ideal.matmul_constant_zero_apply]
  exact PlainDot.sum_eq (M := EReal) d hlb hln hlc hrb hrn hrc l r p q

/-- A plain contraction with no accumulator, at (p, q), is the same sum. -/
theorem dotGeneral_plain {φ₁ φ₂ : FTy} (d : DotDims ⟨2, ![R, K]⟩ ⟨2, ![K, C]⟩ ⟨2, ![R, C]⟩) (prec : Option ContractPrecision)
    (sched : HostSchedule)
    (hlb : d.lhsBatch = []) (hln : d.lhsNonContracting = [0]) (hlc : d.lhsContracting = [1])
    (hrb : d.rhsBatch = []) (hrn : d.rhsNonContracting = [1]) (hrc : d.rhsContracting = [0])
    (l : FVec Ideal ⟨2, ![R, K]⟩ φ₁) (r : FVec Ideal ⟨2, ![K, C]⟩ φ₂) (p : Fin R) (q : Fin C) :
    FloatOps.dotGeneral d prec sched l r (ix2 p q) = ∑ k : Fin K, l (ix2 p k) * r (ix2 k q) := by
  rw [Ideal.dotGeneral_apply]
  exact PlainDot.sum_eq (M := EReal) d hlb hln hlc hrb hrn hrc l r p q

end Sage

end
-- ==== Proof.KernelPayload.lean ====
/-
  The kernels' arithmetic, read at an index.

  Each kernel body loads a band of aggregated features a : [2000, 128], the same band of node features
  x : [2000, 128], two transposed weight matrices and a bias row, and stores

      (a · wl  +  x · wr)  +  bias row broadcast over the band,

  the two products being matrix products into a zero accumulator.  On the extended reals the narrowing of the
  operands before the products is the identity, a shape cast to the same shape is the identity, and a product into
  zero is the plain sum over the shared index: so at every index the stored value is the layer function of the
  loaded bands.  The first kernel also stores the positive part of that value.
-/
import proofs.«147235_j59133109731936_1_alg».proof.Proof.Gen.KernelIdeal.Skeleton
import proofs.«147235_j59133109731936_1_alg».proof.Proof.SageSpec
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen

/-- The bias row broadcast over a band, at (p, q), is the row's entry at column q. -/
theorem bias_bcast (b : Vec Ideal S1x128 .f32) (p : Fin 2000) (q : Fin 128) :
    broadcastTo S2000x128 b broadcasts_S1x128_S2000x128 (ix2 p q) = b (ix2 (0 : Fin 1) q) :=
  broadcastTo_apply b broadcasts_S1x128_S2000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The first kernel's first store is the layer function of its loaded bands. -/
theorem pay1_apply (x0 x1 : Vec Ideal S2000x128 .f32) (x2 x3 : Vec Ideal S128x128 .f32) (x4 : Vec Ideal S1x128 .f32)
    (j : S2000x128.Idx) :
    k0_pay1 (F := Ideal) x0 x1 x2 x3 x4 j = Sage.combine x0 x1 x2 x3 x4 j := by
  obtain ⟨p, q, rfl⟩ : ∃ (p : Fin 2000) (q : Fin 128), j = ix2 p q := ⟨j 0, j 1, eq_ix2 j⟩
  unfold k0_pay1
  simp only [matmul]
  rw [Sage.combine_ix2, addf_apply, addf_apply,
    Sage.matmul_zero_plain dot_S2000x128_S128x128_S2000x128_1_0_0_1_n_n none rfl rfl rfl rfl rfl rfl,
    Sage.matmul_zero_plain dot_S2000x128_S128x128_S2000x128_1_0_0_1_n_n none rfl rfl rfl rfl rfl rfl,
    bias_bcast]
  simp only [truncf_apply, shapeCast_self]

/-- The first kernel's second store is the positive part of its first. -/
theorem pay2_apply (x0 x1 : Vec Ideal S2000x128 .f32) (x2 x3 : Vec Ideal S128x128 .f32) (x4 : Vec Ideal S1x128 .f32)
    (j : S2000x128.Idx) :
    k0_pay2 (F := Ideal) x0 x1 x2 x3 x4 j = Sage.relu (Sage.combine x0 x1 x2 x3 x4) j := by
  unfold k0_pay2
  rw [maximumf_apply, pay1_apply, broadcast_apply]
  show max _ (Ideal.ofBits .f32 0x00000000#32) = max _ 0
  rw [Ideal.ofBits_zero_f32]

/-- The second kernel's store is the layer function of its loaded bands. -/
theorem pay1'_apply (x0 x1 : Vec Ideal S2000x128 .f32) (x2 x3 : Vec Ideal S128x128 .f32) (x4 : Vec Ideal S1x128 .f32)
    (j : S2000x128.Idx) :
    k1_pay1 (F := Ideal) x0 x1 x2 x3 x4 j = Sage.combine x0 x1 x2 x3 x4 j := by
  obtain ⟨p, q, rfl⟩ : ∃ (p : Fin 2000) (q : Fin 128), j = ix2 p q := ⟨j 0, j 1, eq_ix2 j⟩
  unfold k1_pay1
  simp only [matmul]
  rw [Sage.combine_ix2, addf_apply, addf_apply,
    Sage.matmul_zero_plain dot_S2000x128_S128x128_S2000x128_1_0_0_1_n_n none rfl rfl rfl rfl rfl rfl,
    Sage.matmul_zero_plain dot_S2000x128_S128x128_S2000x128_1_0_0_1_n_n none rfl rfl rfl rfl rfl rfl,
    bias_bcast]
  simp only [truncf_apply, shapeCast_self]

end Cert.KernelIdeal.Payload

end
-- ==== Proof.Region0.lean ====
/-
  The first pallas_call of the program, at any contents V of the buffers on entry: what its first output array holds
  after the region.

  The grid has 25 points; point t loads rows [2000 t, 2000 t + 2000) of the aggregated features and of the node
  features, the two whole weight matrices and the whole bias row, and writes back the same rows of the output.
  The body's stored value is the layer function of the loaded bands, which is the same rows of the layer function of
  the whole arrays, since a row of the result reads only that row of the row-wise operands.  The 25 bands cover the
  array, so after the region the output array is the layer function of the arrays found on entry, everywhere.
-/
import proofs.«147235_j59133109731936_1_alg».proof.Proof.Gen.KernelIdeal.Frame
import proofs.«147235_j59133109731936_1_alg».proof.Proof.KernelPayload
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer function of the arrays the region finds in its five input windows. -/
abbrev lin (c : Dev nD) : S50000x128.Idx → EReal :=
  Sage.combine (V c main_v21) (V c main_arg0) (V c main_v22) (V c main_v23) (V c main_v24)

/-- The printed index maps over the grid: the two row-wise input windows and the output window sit at the same band of
    rows, column block 0; the weight and bias windows sit at block (0, 0). -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 :=
  (by decide +kernel : ∀ t : Fin grid0.N, _)

/-- Every band of rows is some point's block of the output window. -/
theorem idx_onto : ∀ q0 : Fin 25, ∃ t : Fin cfg0.N, win0_5.index t = ![q0.val, 0] :=
  (by decide +kernel : ∀ q0 : Fin 25, ∃ t : Fin grid0.N, win0_5.index t = ![q0.val, 0])

/-- What point t writes back through the output window is band t of the layer function of the arrays found on entry: the body's
    store is that function of the loaded bands, the two row-wise operands' bands lie at the same rows as the output's,
    and the weight and bias windows hold their whole arrays at every point. -/
theorem flushed (c : Dev nD) (t : Fin cfg0.N) :
    (dat0 V c).flushed 5 t = ((cfg0.win 5).blk t).view.read (Elt Ideal) (lin V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, eo1⟩ := idx_facts t
  funext j
  show k0_pay1 (F := Ideal) (iblk0 V c 0 t) (iblk0 V c 1 t) (iblk0 V c 2 t) (iblk0 V c 3 t) (iblk0 V c 4 t) j
      = lin V c (((cfg0.win 5).blk t).view.emb j)
  rw [Payload.pay1_apply]
  refine Sage.combine_eq_of (iblk0 V c 0 t) (iblk0 V c 1 t) (iblk0 V c 2 t) (iblk0 V c 3 t) (iblk0 V c 4 t)
    (V c main_v21) (V c main_arg0) (V c main_v22) (V c main_v23) (V c main_v24) j (((cfg0.win 5).blk t).view.emb j)
    (fun k => ?_) (fun k => ?_) (fun k => ?_) (fun k => ?_) ?_
  · show V c main_v21 (((cfg0.win 0).blk t).view.emb (ix2 (j 0) k)) = V c main_v21 (ix2 ((((cfg0.win 5).blk t).view.emb j) 0) k)
    refine congrArg (V c main_v21) (funext fun a => Fin.ext ?_)
    match a with
    | ⟨0, _⟩ => show win0_0.index t (0 : Fin 2) * 2000 + 1 * (j 0).val = win0_5.index t (0 : Fin 2) * 2000 + 1 * (j 0).val; rw [e00]
    | ⟨1, _⟩ => show win0_0.index t (1 : Fin 2) * 128 + 1 * k.val = k.val; rw [e01]; omega
  · show V c main_arg0 (((cfg0.win 1).blk t).view.emb (ix2 (j 0) k)) = V c main_arg0 (ix2 ((((cfg0.win 5).blk t).view.emb j) 0) k)
    refine congrArg (V c main_arg0) (funext fun a => Fin.ext ?_)
    match a with
    | ⟨0, _⟩ => show win0_1.index t (0 : Fin 2) * 2000 + 1 * (j 0).val = win0_5.index t (0 : Fin 2) * 2000 + 1 * (j 0).val; rw [e10]
    | ⟨1, _⟩ => show win0_1.index t (1 : Fin 2) * 128 + 1 * k.val = k.val; rw [e11]; omega
  · show V c main_v22 (((cfg0.win 2).blk t).view.emb (ix2 k (j 1))) = V c main_v22 (ix2 k ((((cfg0.win 5).blk t).view.emb j) 1))
    refine congrArg (V c main_v22) (funext fun a => Fin.ext ?_)
    match a with
    | ⟨0, _⟩ => show win0_2.index t (0 : Fin 2) * 128 + 1 * k.val = k.val; rw [e20]; omega
    | ⟨1, _⟩ => show win0_2.index t (1 : Fin 2) * 128 + 1 * (j 1).val = win0_5.index t (1 : Fin 2) * 128 + 1 * (j 1).val; rw [e21, eo1]
  · show V c main_v23 (((cfg0.win 3).blk t).view.emb (ix2 k (j 1))) = V c main_v23 (ix2 k ((((cfg0.win 5).blk t).view.emb j) 1))
    refine congrArg (V c main_v23) (funext fun a => Fin.ext ?_)
    match a with
    | ⟨0, _⟩ => show win0_3.index t (0 : Fin 2) * 128 + 1 * k.val = k.val; rw [e30]; omega
    | ⟨1, _⟩ => show win0_3.index t (1 : Fin 2) * 128 + 1 * (j 1).val = win0_5.index t (1 : Fin 2) * 128 + 1 * (j 1).val; rw [e31, eo1]
  · show V c main_v24 (((cfg0.win 4).blk t).view.emb (ix2 (0 : Fin 1) (j 1))) = V c main_v24 (ix2 (0 : Fin 1) ((((cfg0.win 5).blk t).view.emb j) 1))
    refine congrArg (V c main_v24) (funext fun a => Fin.ext ?_)
    match a with
    | ⟨0, _⟩ => show win0_4.index t (0 : Fin 2) * 1 + 1 * 0 = 0; rw [e40]
    | ⟨1, _⟩ => show win0_4.index t (1 : Fin 2) * 128 + 1 * (j 1).val = win0_5.index t (1 : Fin 2) * 128 + 1 * (j 1).val; rw [e41, eo1]

/-- An index of the array lies in point t's block of the output window iff each coordinate lies in the block's range. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v25_0).slice (win0_5.rect t)).set ↔ _
  rw [View.set_slice_whole, Rect.mem_set_unit]
  exact Iff.rfl

/-- Every index of the array lies in some point's block: row r is in the band of point r / 2000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- After the region the output array holds the layer function of the arrays found on entry, everywhere. -/
theorem final (c : Dev nD) : (dat0 V c).arrAt 5 cfg0.N = lin V c :=
  (dat0 V c).arrAt_eq_of_cover 5 (lin V c) (fun t _ => flushed V c t) cover

end Cert.KernelIdeal.Region0

end
-- ==== Proof.Region0Act.lean ====
/-
  The first pallas_call of the program, at any contents V of the buffers on entry: what its second output array holds
  after the region.

  The second output is written band by band like the first, and the body stores there the positive part of what it
  stores in the first.  So after the region it holds the positive part of the layer function of the arrays found on
  entry, everywhere: the same block reads and the same cover as for the first output.
-/
import proofs.«147235_j59133109731936_1_alg».proof.Proof.Gen.KernelIdeal.Frame
import proofs.«147235_j59133109731936_1_alg».proof.Proof.KernelPayload
import proofs.«147235_j59133109731936_1_alg».proof.Proof.Region0
import Idealize.ShloMosaic.Lib.Pipeline.Value

set_option maxRecDepth 16384

noncomputable section

namespace Cert.KernelIdeal.Region0Act

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The positive part of the layer function of the arrays the region finds in its five input windows. -/
abbrev act (c : Dev nD) : S50000x128.Idx → EReal := Sage.relu (Region0.lin V c)

/-- The printed index maps over the grid: the two row-wise input windows and the output window sit at the same band of
    rows, column block 0; the weight and bias windows sit at block (0, 0). -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (1 : Fin 2) = 0 :=
  (by decide +kernel : ∀ t : Fin grid0.N, _)

/-- Every band of rows is some point's block of the output window. -/
theorem idx_onto : ∀ q0 : Fin 25, ∃ t : Fin cfg0.N, win0_6.index t = ![q0.val, 0] :=
  (by decide +kernel : ∀ q0 : Fin 25, ∃ t : Fin grid0.N, win0_6.index t = ![q0.val, 0])

/-- What point t writes back through the output window is band t of the positive part of the layer function of the arrays found on entry: the body's
    store is that function of the loaded bands, the two row-wise operands' bands lie at the same rows as the output's,
    and the weight and bias windows hold their whole arrays at every point. -/
theorem flushed (c : Dev nD) (t : Fin cfg0.N) :
    (dat0 V c).flushed 6 t = ((cfg0.win 6).blk t).view.read (Elt Ideal) (act V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, eo1⟩ := idx_facts t
  funext j
  show k0_pay2 (F := Ideal) (iblk0 V c 0 t) (iblk0 V c 1 t) (iblk0 V c 2 t) (iblk0 V c 3 t) (iblk0 V c 4 t) j
      = act V c (((cfg0.win 6).blk t).view.emb j)
  rw [Payload.pay2_apply]
  show max _ 0 = max _ 0
  refine congrArg (max · (0 : EReal)) ?_
  refine Sage.combine_eq_of (iblk0 V c 0 t) (iblk0 V c 1 t) (iblk0 V c 2 t) (iblk0 V c 3 t) (iblk0 V c 4 t)
    (V c main_v21) (V c main_arg0) (V c main_v22) (V c main_v23) (V c main_v24) j (((cfg0.win 6).blk t).view.emb j)
    (fun k => ?_) (fun k => ?_) (fun k => ?_) (fun k => ?_) ?_
  · show V c main_v21 (((cfg0.win 0).blk t).view.emb (ix2 (j 0) k)) = V c main_v21 (ix2 ((((cfg0.win 6).blk t).view.emb j) 0) k)
    refine congrArg (V c main_v21) (funext fun a => Fin.ext ?_)
    match a with
    | ⟨0, _⟩ => show win0_0.index t (0 : Fin 2) * 2000 + 1 * (j 0).val = win0_6.index t (0 : Fin 2) * 2000 + 1 * (j 0).val; rw [e00]
    | ⟨1, _⟩ => show win0_0.index t (1 : Fin 2) * 128 + 1 * k.val = k.val; rw [e01]; omega
  · show V c main_arg0 (((cfg0.win 1).blk t).view.emb (ix2 (j 0) k)) = V c main_arg0 (ix2 ((((cfg0.win 6).blk t).view.emb j) 0) k)
    refine congrArg (V c main_arg0) (funext fun a => Fin.ext ?_)
    match a with
    | ⟨0, _⟩ => show win0_1.index t (0 : Fin 2) * 2000 + 1 * (j 0).val = win0_6.index t (0 : Fin 2) * 2000 + 1 * (j 0).val; rw [e10]
    | ⟨1, _⟩ => show win0_1.index t (1 : Fin 2) * 128 + 1 * k.val = k.val; rw [e11]; omega
  · show V c main_v22 (((cfg0.win 2).blk t).view.emb (ix2 k (j 1))) = V c main_v22 (ix2 k ((((cfg0.win 6).blk t).view.emb j) 1))
    refine congrArg (V c main_v22) (funext fun a => Fin.ext ?_)
    match a with
    | ⟨0, _⟩ => show win0_2.index t (0 : Fin 2) * 128 + 1 * k.val = k.val; rw [e20]; omega
    | ⟨1, _⟩ => show win0_2.index t (1 : Fin 2) * 128 + 1 * (j 1).val = win0_6.index t (1 : Fin 2) * 128 + 1 * (j 1).val; rw [e21, eo1]
  · show V c main_v23 (((cfg0.win 3).blk t).view.emb (ix2 k (j 1))) = V c main_v23 (ix2 k ((((cfg0.win 6).blk t).view.emb j) 1))
    refine congrArg (V c main_v23) (funext fun a => Fin.ext ?_)
    match a with
    | ⟨0, _⟩ => show win0_3.index t (0 : Fin 2) * 128 + 1 * k.val = k.val; rw [e30]; omega
    | ⟨1, _⟩ => show win0_3.index t (1 : Fin 2) * 128 + 1 * (j 1).val = win0_6.index t (1 : Fin 2) * 128 + 1 * (j 1).val; rw [e31, eo1]
  · show V c main_v24 (((cfg0.win 4).blk t).view.emb (ix2 (0 : Fin 1) (j 1))) = V c main_v24 (ix2 (0 : Fin 1) ((((cfg0.win 6).blk t).view.emb j) 1))
    refine congrArg (V c main_v24) (funext fun a => Fin.ext ?_)
    match a with
    | ⟨0, _⟩ => show win0_4.index t (0 : Fin 2) * 1 + 1 * 0 = 0; rw [e40]
    | ⟨1, _⟩ => show win0_4.index t (1 : Fin 2) * 128 + 1 * (j 1).val = win0_6.index t (1 : Fin 2) * 128 + 1 * (j 1).val; rw [e41, eo1]

/-- An index of the array lies in point t's block of the output window iff each coordinate lies in the block's range. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole main_v25_1).slice (win0_6.rect t)).set ↔ _
  rw [View.set_slice_whole, Rect.mem_set_unit]
  exact Iff.rfl

/-- Every index of the array lies in some point's block: row r is in the band of point r / 2000. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- After the region the output array holds the positive part of the layer function of the arrays found on entry, everywhere. -/
theorem final (c : Dev nD) : (dat0 V c).arrAt 6 cfg0.N = act V c :=
  (dat0 V c).arrAt_eq_of_cover 6 (act V c) (fun t _ => flushed V c t) cover

end Cert.KernelIdeal.Region0Act

end
-- ==== Proof.Region1.lean ====
/-
  The second pallas_call of the program, at any contents V of the buffers on entry: what its output array holds
  after the region.

  The grid has 25 points; point t loads rows [2000 t, 2000 t + 2000) of the aggregated features and of the node
  features, the two whole weight matrices and the whole bias row, and writes back the same rows of the output.
  The body's stored value is the layer function of the loaded bands, which is the same rows of the layer function of
  the whole arrays, since a row of the result reads only that row of the row-wise operands.  The 25 bands cover the
  array, so after the region the output array is the layer function of the arrays found on entry, everywhere.
-/
import proofs.«147235_j59133109731936_1_alg».proof.Proof.Gen.KernelIdeal.Frame
import proofs.«147235_j59133109731936_1_alg».proof.Proof.KernelPayload
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The layer function of the arrays the region finds in its five input windows. -/
abbrev lin (c : Dev nD) : S50000x128.Idx → EReal :=
  Sage.combine (V c main_v43) (V c main_v25_1) (V c main_v44) (V c main_v45) (V c main_v46)

/-- The printed index maps over the grid: the two row-wise input windows and the output window sit at the same band of
    rows, column block 0; the weight and bias windows sit at block (0, 0). -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 :=
  (by decide +kernel : ∀ t : Fin grid1.N, _)

/-- Every band of rows is some point's block of the output window. -/
theorem idx_onto : ∀ q0 : Fin 25, ∃ t : Fin cfg1.N, win1_5.index t = ![q0.val, 0] :=
  (by decide +kernel : ∀ q0 : Fin 25, ∃ t : Fin grid1.N, win1_5.index t = ![q0.val, 0])

/-- What point t writes back through the output window is band t of the layer function of the arrays found on entry: the body's
    store is that function of the loaded bands, the two row-wise operands' bands lie at the same rows as the output's,
    and the weight and bias windows hold their whole arrays at every point. -/
theorem flushed (c : Dev nD) (t : Fin cfg1.N) :
    (dat1 V c).flushed 5 t = ((cfg1.win 5).blk t).view.read (Elt Ideal) (lin V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x128) hz, View.ld_unit_zero (S := S1x128) hz]
  obtain ⟨e00, e01, e10, e11, e20, e21, e30, e31, e40, e41, eo1⟩ := idx_facts t
  funext j
  show k1_pay1 (F := Ideal) (iblk1 V c 0 t) (iblk1 V c 1 t) (iblk1 V c 2 t) (iblk1 V c 3 t) (iblk1 V c 4 t) j
      = lin V c (((cfg1.win 5).blk t).view.emb j)
  rw [Payload.pay1'_apply]
  refine Sage.combine_eq_of (iblk1 V c 0 t) (iblk1 V c 1 t) (iblk1 V c 2 t) (iblk1 V c 3 t) (iblk1 V c 4 t)
    (V c main_v43) (V c main_v25_1) (V c main_v44) (V c main_v45) (V c main_v46) j (((cfg1.win 5).blk t).view.emb j)
    (fun k => ?_) (fun k => ?_) (fun k => ?_) (fun k => ?_) ?_
  · show V c main_v43 (((cfg1.win 0).blk t).view.emb (ix2 (j 0) k)) = V c main_v43 (ix2 ((((cfg1.win 5).blk t).view.emb j) 0) k)
    refine congrArg (V c main_v43) (funext fun a => Fin.ext ?_)
    match a with
    | ⟨0, _⟩ => show win1_0.index t (0 : Fin 2) * 2000 + 1 * (j 0).val = win1_5.index t (0 : Fin 2) * 2000 + 1 * (j 0).val; rw [e00]
    | ⟨1, _⟩ => show win1_0.index t (1 : Fin 2) * 128 + 1 * k.val = k.val; rw [e01]; omega
  · show V c main_v25_1 (((cfg1.win 1).blk t).view.emb (ix2 (j 0) k)) = V c main_v25_1 (ix2 ((((cfg1.win 5).blk t).view.emb j) 0) k)
    refine congrArg (V c main_v25_1) (funext fun a => Fin.ext ?_)
    match a with
    | ⟨0, _⟩ => show win1_1.index t (0 : Fin 2) * 2000 + 1 * (j 0).val = win1_5.index t (0 : Fin 2) * 2000 + 1 * (j 0).val; rw [e10]
    | ⟨1, _⟩ => show win1_1.index t (1 : Fin 2) * 128 + 1 * k.val = k.val; rw [e11]; omega
  · show V c main_v44 (((cfg1.win 2).blk t).view.emb (ix2 k (j 1))) = V c main_v44 (ix2 k ((((cfg1.win 5).blk t).view.emb j) 1))
    refine congrArg (V c main_v44) (funext fun a => Fin.ext ?_)
    match a with
    | ⟨0, _⟩ => show win1_2.index t (0 : Fin 2) * 128 + 1 * k.val = k.val; rw [e20]; omega
    | ⟨1, _⟩ => show win1_2.index t (1 : Fin 2) * 128 + 1 * (j 1).val = win1_5.index t (1 : Fin 2) * 128 + 1 * (j 1).val; rw [e21, eo1]
  · show V c main_v45 (((cfg1.win 3).blk t).view.emb (ix2 k (j 1))) = V c main_v45 (ix2 k ((((cfg1.win 5).blk t).view.emb j) 1))
    refine congrArg (V c main_v45) (funext fun a => Fin.ext ?_)
    match a with
    | ⟨0, _⟩ => show win1_3.index t (0 : Fin 2) * 128 + 1 * k.val = k.val; rw [e30]; omega
    | ⟨1, _⟩ => show win1_3.index t (1 : Fin 2) * 128 + 1 * (j 1).val = win1_5.index t (1 : Fin 2) * 128 + 1 * (j 1).val; rw [e31, eo1]
  · show V c main_v46 (((cfg1.win 4).blk t).view.emb (ix2 (0 : Fin 1) (j 1))) = V c main_v46 (ix2 (0 : Fin 1) ((((cfg1.win 5).blk t).view.emb j) 1))
    refine congrArg (V c main_v46) (funext fun a => Fin.ext ?_)
    match a with
    | ⟨0, _⟩ => show win1_4.index t (0 : Fin 2) * 1 + 1 * 0 = 0; rw [e40]
    | ⟨1, _⟩ => show win1_4.index t (1 : Fin 2) * 128 + 1 * (j 1).val = win1_5.index t (1 : Fin 2) * 128 + 1 * (j 1).val; rw [e41, eo1]

/-- An index of the array lies in point t's block of the output window iff each coordinate lies in the block's range. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v47).slice (win1_5.rect t)).set ↔ _
  rw [View.set_slice_whole, Rect.mem_set_unit]
  exact Iff.rfl

/-- Every index of the array lies in some point's block: row r is in the band of point r / 2000. -/
theorem cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- After the region the output array holds the layer function of the arrays found on entry, everywhere. -/
theorem final (c : Dev nD) : (dat1 V c).arrAt 5 cfg1.N = lin V c :=
  (dat1 V c).arrAt_eq_of_cover 5 (lin V c) (fun t _ => flushed V c t) cover

end Cert.KernelIdeal.Region1

end
-- ==== Proof.Layer.lean ====
/-
  The whole program as functions of its eight arguments, over the extended reals.

  agg x e is the mean of the neighbours' feature rows: the edges' source rows (a negative source wrapped round once) are
  gathered from x, summed into the edges' destination rows, and divided by the number of edges into each row, or by one
  where there is none.  It is kept as one function and never opened: both programs apply it to equal arrays.

  With tr the transpose of a weight matrix and row the bias as a 1 × 128 row,

      c1 = combine (agg x e) x (tr w1l) (tr w1r) (row b1),     a1 = positive part of c1,
      c2 = combine (agg a1 e) a1 (tr w2l) (tr w2r) (row b2),

  and the program returns (x, c1, c2).
-/
import proofs.«147235_j59133109731936_1_alg».proof.Proof.Gen.KernelIdeal
import proofs.«147235_j59133109731936_1_alg».proof.Proof.SageSpec

noncomputable section

namespace Cert.KernelIdeal.Layer

open Idealize.ShloMosaic Cert.KernelIdeal Cert.KernelIdeal.Facts₀ Cert.KernelIdeal.Facts

abbrev Feat : Type := (⟨S50000x128, .f32⟩ : BufTy).Contents (Elt Ideal)
abbrev Edges : Type := (⟨S2x600000, .i32⟩ : BufTy).Contents (Elt Ideal)
abbrev Weight : Type := (⟨S128x128, .f32⟩ : BufTy).Contents (Elt Ideal)
abbrev Bias : Type := (⟨S128, .f32⟩ : BufTy).Contents (Elt Ideal)

/-- The edges' source rows. -/
def srcRow (e : Edges) : (⟨S600000, .i32⟩ : BufTy).Contents (Elt Ideal) :=
  shapeCast S600000 (extractStridedSlice S1x600000 ![0, 0] e slices_S2x600000_S1x600000_0_0) shapeCasts_S1x600000_S600000

/-- The edges' destination rows. -/
def dstRow (e : Edges) : (⟨S600000, .i32⟩ : BufTy).Contents (Elt Ideal) :=
  shapeCast S600000 (extractStridedSlice S1x600000 ![1, 0] e slices_S2x600000_S1x600000_1_0) shapeCasts_S1x600000_S600000

/-- The mean of the neighbours' rows of x along the edges e. -/
def agg (x : Feat) (e : Edges) : Feat :=
  Host.divf
    (Host.scatterAdd scatter_S50000x128_S600000x1_S600000x128_1_0_0_1
      (broadcastInDim S50000x128 ![] bcast_S_S50000x128 (constant (F := Ideal) S_ .f32 0x00000000#32))
      (broadcastInDim S600000x1 ![0] bcast_S600000_S600000x1_0 (dstRow e))
      (Host.gather gather_S50000x128_S600000x1_S600000x128_1_0_n_n_0_1_1128 x
        (broadcastInDim S600000x1 ![0] bcast_S600000_S600000x1_0
          (select (cmpi .slt (srcRow e) (broadcastInDim S600000 ![] bcast_S_S600000 (constantI S_ 32 0#32)))
            (addi (srcRow e) (broadcastInDim S600000 ![] bcast_S_S600000 (constantI S_ 32 50000#32)))
            (srcRow e)))))
    (broadcastInDim S50000x128 ![0, 1] bcast_S50000x1_S50000x128_0_1
      (maximumf
        (Host.scatterAdd scatter_S50000x1_S600000x1_S600000x1_1_0_0_1
          (broadcastInDim S50000x1 ![] bcast_S_S50000x1 (constant (F := Ideal) S_ .f32 0x00000000#32))
          (broadcastInDim S600000x1 ![0] bcast_S600000_S600000x1_0 (dstRow e))
          (broadcastInDim S600000x1 ![] bcast_S_S600000x1 (constant (F := Ideal) S_ .f32 0x3F800000#32)))
        (broadcastInDim S50000x1 ![] bcast_S_S50000x1 (constant (F := Ideal) S_ .f32 0x3F800000#32))))

/-- A weight matrix transposed: the contraction index first. -/
def tr (w : Weight) : Weight := transpose S128x128 [1, 0] w transposes_S128x128_S128x128_1_0

/-- A bias vector as a 1 × 128 row. -/
def row (b : Bias) : (⟨S1x128, .f32⟩ : BufTy).Contents (Elt Ideal) := shapeCast S1x128 b shapeCasts_S128_S1x128

/-- The first layer's result. -/
def c1 (x : Feat) (e : Edges) (w1l : Weight) (b1 : Bias) (w1r : Weight) : Feat :=
  Sage.combine (agg x e) x (tr w1l) (tr w1r) (row b1)

/-- The first layer's activation. -/
def a1 (x : Feat) (e : Edges) (w1l : Weight) (b1 : Bias) (w1r : Weight) : Feat := Sage.relu (c1 x e w1l b1 w1r)

/-- The second layer's result. -/
def c2 (x : Feat) (e : Edges) (w1l : Weight) (b1 : Bias) (w1r w2l : Weight) (b2 : Bias) (w2r : Weight) : Feat :=
  Sage.combine (agg (a1 x e w1l b1 w1r) e) (a1 x e w1l b1 w1r) (tr w2l) (tr w2r) (row b2)

end Cert.KernelIdeal.Layer

end
-- ==== Proof.KernelValue.lean ====
/-
  The kernel program's results as functions of its arguments.

  The buffers' contents at the program's four segment boundaries are a fold from the launch memory: a host stretch
  writes its operations' values, a region leaves its output arrays at what its bands wrote back.  Read back through
  that fold:
  - on entry to the first region its windows hold agg x e, x, the two transposed first-layer weights and the first bias
    row, so after it the first output is c1 and the second its positive part a1;
  - the second host stretch recomputes the mean of neighbours from a1 with the same edge rows, so on entry to the second
    region its windows hold agg a1 e, a1, the transposed second-layer weights and the second bias row, and after it the
    output is c2;
  - nothing after the first region writes its first output.
-/
import proofs.«147235_j59133109731936_1_alg».proof.Proof.Region0Act
import proofs.«147235_j59133109731936_1_alg».proof.Proof.Region1
import proofs.«147235_j59133109731936_1_alg».proof.Proof.Layer
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## On entry to the first region -/

theorem V1_v21 (c : Dev nD) : V1 m ρ c main_v21
    = Layer.agg (m ((c.tc : Thread nD τ).loc main_arg0)) (m ((c.tc : Thread nD τ).loc main_arg1)) := by
  show StableHlo.after hostOps0 (W0 m ρ c) (Proc.devRef .tc main_v21) = _
  after_results_simp
  rfl

theorem V1_arg0 (c : Dev nD) : V1 m ρ c main_arg0 = m ((c.tc : Thread nD τ).loc main_arg0) := by
  show StableHlo.after hostOps0 (W0 m ρ c) (Proc.devRef .tc main_arg0) = _
  after_results_simp

theorem V1_v22 (c : Dev nD) : V1 m ρ c main_v22 = Layer.tr (m ((c.tc : Thread nD τ).loc main_arg2)) := by
  show StableHlo.after hostOps0 (W0 m ρ c) (Proc.devRef .tc main_v22) = _
  after_results_simp
  rfl

theorem V1_v23 (c : Dev nD) : V1 m ρ c main_v23 = Layer.tr (m ((c.tc : Thread nD τ).loc main_arg4)) := by
  show StableHlo.after hostOps0 (W0 m ρ c) (Proc.devRef .tc main_v23) = _
  after_results_simp
  rfl

theorem V1_v24 (c : Dev nD) : V1 m ρ c main_v24 = Layer.row (m ((c.tc : Thread nD τ).loc main_arg3)) := by
  show StableHlo.after hostOps0 (W0 m ρ c) (Proc.devRef .tc main_v24) = _
  after_results_simp
  rfl

/-! ## After the first region -/

/-- The first output of the first region is the first layer's result. -/
theorem W2_c1 (c : Dev nD) : W2 m ρ c (Proc.devRef .tc main_v25_0)
    = Layer.c1 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (W2_arr m ρ c 5).trans ((Region0.final (V1 m ρ) c).trans ?_)
  show Sage.combine (V1 m ρ c main_v21) (V1 m ρ c main_arg0) (V1 m ρ c main_v22) (V1 m ρ c main_v23) (V1 m ρ c main_v24) = _
  rw [V1_v21, V1_arg0, V1_v22, V1_v23, V1_v24]
  rfl

/-- The second output of the first region is the first layer's activation. -/
theorem W2_a1 (c : Dev nD) : W2 m ρ c (Proc.devRef .tc main_v25_1)
    = Layer.a1 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (W2_arr m ρ c 6).trans ((Region0Act.final (V1 m ρ) c).trans ?_)
  show Sage.relu (Sage.combine (V1 m ρ c main_v21) (V1 m ρ c main_arg0) (V1 m ρ c main_v22) (V1 m ρ c main_v23) (V1 m ρ c main_v24)) = _
  rw [V1_v21, V1_arg0, V1_v22, V1_v23, V1_v24]
  rfl

/-- The edge rows the first host stretch computed are still there. -/
theorem W2_v1 (c : Dev nD) : W2 m ρ c (Proc.devRef .tc main_v1) = Layer.srcRow (m ((c.tc : Thread nD τ).loc main_arg1)) := by
  refine (W2_of_ne m ρ c main_v1 (by decide)).trans ?_
  show StableHlo.after hostOps0 (W0 m ρ c) (Proc.devRef .tc main_v1) = _
  after_results_simp
  rfl

theorem W2_v3 (c : Dev nD) : W2 m ρ c (Proc.devRef .tc main_v3) = Layer.dstRow (m ((c.tc : Thread nD τ).loc main_arg1)) := by
  refine (W2_of_ne m ρ c main_v3 (by decide)).trans ?_
  show StableHlo.after hostOps0 (W0 m ρ c) (Proc.devRef .tc main_v3) = _
  after_results_simp
  rfl

theorem W2_arg5 (c : Dev nD) : W2 m ρ c (Proc.devRef .tc main_arg5) = m ((c.tc : Thread nD τ).loc main_arg5) := by
  refine (W2_of_ne m ρ c main_arg5 (by decide)).trans ?_
  show StableHlo.after hostOps0 (W0 m ρ c) (Proc.devRef .tc main_arg5) = _
  after_results_simp

theorem W2_arg6 (c : Dev nD) : W2 m ρ c (Proc.devRef .tc main_arg6) = m ((c.tc : Thread nD τ).loc main_arg6) := by
  refine (W2_of_ne m ρ c main_arg6 (by decide)).trans ?_
  show StableHlo.after hostOps0 (W0 m ρ c) (Proc.devRef .tc main_arg6) = _
  after_results_simp

theorem W2_arg7 (c : Dev nD) : W2 m ρ c (Proc.devRef .tc main_arg7) = m ((c.tc : Thread nD τ).loc main_arg7) := by
  refine (W2_of_ne m ρ c main_arg7 (by decide)).trans ?_
  show StableHlo.after hostOps0 (W0 m ρ c) (Proc.devRef .tc main_arg7) = _
  after_results_simp

/-! ## On entry to the second region -/

theorem V3_v43 (c : Dev nD) : V3 m ρ c main_v43
    = Layer.agg (W2 m ρ c (Proc.devRef .tc main_v25_1)) (m ((c.tc : Thread nD τ).loc main_arg1)) := by
  show StableHlo.after hostOps1 (W2 m ρ c) (Proc.devRef .tc main_v43) = _
  after_results_simp
  rw [W2_v1, W2_v3]
  rfl

theorem V3_v25_1 (c : Dev nD) : V3 m ρ c main_v25_1 = W2 m ρ c (Proc.devRef .tc main_v25_1) := by
  show StableHlo.after hostOps1 (W2 m ρ c) (Proc.devRef .tc main_v25_1) = _
  after_results_simp

theorem V3_v44 (c : Dev nD) : V3 m ρ c main_v44 = Layer.tr (m ((c.tc : Thread nD τ).loc main_arg5)) := by
  show StableHlo.after hostOps1 (W2 m ρ c) (Proc.devRef .tc main_v44) = _
  after_results_simp
  rw [W2_arg5]
  rfl

theorem V3_v45 (c : Dev nD) : V3 m ρ c main_v45 = Layer.tr (m ((c.tc : Thread nD τ).loc main_arg7)) := by
  show StableHlo.after hostOps1 (W2 m ρ c) (Proc.devRef .tc main_v45) = _
  after_results_simp
  rw [W2_arg7]
  rfl

theorem V3_v46 (c : Dev nD) : V3 m ρ c main_v46 = Layer.row (m ((c.tc : Thread nD τ).loc main_arg6)) := by
  show StableHlo.after hostOps1 (W2 m ρ c) (Proc.devRef .tc main_v46) = _
  after_results_simp
  rw [W2_arg6]
  rfl

/-! ## The results -/

/-- The program's second result: the first layer's result, which nothing after the first region writes. -/
theorem out1 (c : Dev nD) : W4 m ρ c (Proc.devRef .tc main_v25_0)
    = Layer.c1 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine (W4_of_ne m ρ c main_v25_0 (by decide)).trans ?_
  refine Eq.trans ?_ (W2_c1 m ρ c)
  show StableHlo.after hostOps1 (W2 m ρ c) (Proc.devRef .tc main_v25_0) = _
  after_results_simp

/-- The program's third result: the second layer's result. -/
theorem out2 (c : Dev nD) : W4 m ρ c (Proc.devRef .tc main_v47)
    = Layer.c2 (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  refine (W4_arr m ρ c 5).trans ((Region1.final (V3 m ρ) c).trans ?_)
  show Sage.combine (V3 m ρ c main_v43) (V3 m ρ c main_v25_1) (V3 m ρ c main_v44) (V3 m ρ c main_v45) (V3 m ρ c main_v46) = _
  rw [V3_v43, V3_v25_1, V3_v44, V3_v45, V3_v46, W2_a1]
  rfl

end Cert.KernelIdeal.KValue

end
-- ==== Proof.RefValue.lean ====
/-
  The reference program's results as functions of its arguments.

  The reference computes each layer on the host: the mean of neighbours, a contraction with the transposed left weight,
  the bias broadcast over the rows, and a contraction of the node features with the transposed right weight, added as
  (A + bias) + X.  On the extended reals a contraction with no accumulator is the plain sum over the shared index, and
  the three terms may be regrouped as (A + X) + bias, since addition there is commutative and associative: so each
  layer is the layer function combine of the same operands.  The bias, broadcast to a 1 × 128 row and then over all
  rows, is at (p, q) the bias' entry q: the same as the 1 × 128 reshape of the bias at (0, q).

  The mean of neighbours is the same chain of host operations in both programs; it is never opened here.  The
  reference's positive part is the maximum with a broadcast zero.
-/
import proofs.«147235_j59133109731936_1_alg».proof.Proof.Gen.ReferenceIdeal.Run
import proofs.«147235_j59133109731936_1_alg».proof.Proof.Gen.ReferenceIdeal.Read
import proofs.«147235_j59133109731936_1_alg».proof.Proof.Layer
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Read
open Cert.ReferenceIdeal.Facts₀ Cert.ReferenceIdeal.Facts

/-- The bias broadcast to a row and then over all rows, at (p, q), is the bias reshaped to a row, at (0, q). -/
theorem bias_at (b : (⟨S128, .f32⟩ : BufTy).Contents (Elt Ideal)) (p : Fin 50000) (q : Fin 128) :
    broadcastInDim S50000x128 ![0, 1] bcast_S1x128_S50000x128_0_1 (broadcastInDim S1x128 ![1] bcast_S128_S1x128_1 b) (ix2 p q)
      = Cert.KernelIdeal.Layer.row b (ix2 (0 : Fin 1) q) := by
  have h1 : broadcastInDim S50000x128 ![0, 1] bcast_S1x128_S50000x128_0_1 (broadcastInDim S1x128 ![1] bcast_S128_S1x128_1 b) (ix2 p q)
      = broadcastInDim S1x128 ![1] bcast_S128_S1x128_1 b (ix2 (0 : Fin 1) q) :=
    broadcastInDim_apply _ bcast_S1x128_S50000x128_0_1 _ (ix2 p q) (ix2 (0 : Fin 1) q) (fun a => match a with
      | ⟨0, _⟩ => by show 0 = if (1 : Nat) = 1 then 0 else _; rw [if_pos rfl]
      | ⟨1, _⟩ => by show q.val = if (128 : Nat) = 1 then 0 else q.val; rw [if_neg (by decide)])
  have h2 : broadcastInDim S1x128 ![1] bcast_S128_S1x128_1 b (ix2 (0 : Fin 1) q) = b (ix1 q) :=
    broadcastInDim_apply _ bcast_S128_S1x128_1 b (ix2 (0 : Fin 1) q) (ix1 q) (fun a => match a with
      | ⟨0, _⟩ => by show q.val = if (128 : Nat) = 1 then 0 else q.val; rw [if_neg (by decide)])
  have h3 : Cert.KernelIdeal.Layer.row b (ix2 (0 : Fin 1) q) = b (ix1 q) := by
    unfold Cert.KernelIdeal.Layer.row
    refine (shapeCast_addUnit_apply ![128] b _ (ix2 (0 : Fin 1) q)).trans (congrArg b ?_)
    funext a
    match a with
    | ⟨0, _⟩ => rfl
  rw [h1, h2, h3]

/-- One layer as the reference computes it is the layer function of the same operands. -/
theorem layer_eq (a x : FVec Ideal S50000x128 .f32) (wl wr : FVec Ideal S128x128 .f32) (b : FVec Ideal S128 .f32) :
    addf (F := Ideal) (addf (F := Ideal) (Host.dotGeneral (F := Ideal) (φ₁ := .f32) (φ₂ := .f32) dot_S50000x128_S128x128_S50000x128_1_0_0_1_n_n none a (transpose S128x128 [1, 0] wl transposes_S128x128_S128x128_1_0))
        (broadcastInDim S50000x128 ![0, 1] bcast_S1x128_S50000x128_0_1 (broadcastInDim S1x128 ![1] bcast_S128_S1x128_1 b)))
      (Host.dotGeneral (F := Ideal) (φ₁ := .f32) (φ₂ := .f32) dot_S50000x128_S128x128_S50000x128_1_0_0_1_n_n none x (transpose S128x128 [1, 0] wr transposes_S128x128_S128x128_1_0))
    = Sage.combine a x (Cert.KernelIdeal.Layer.tr wl) (Cert.KernelIdeal.Layer.tr wr) (Cert.KernelIdeal.Layer.row b) := by
  funext j
  obtain ⟨p, q, rfl⟩ : ∃ (p : Fin 50000) (q : Fin 128), j = ix2 p q := ⟨j 0, j 1, eq_ix2 j⟩
  rw [Sage.combine_ix2', addf_apply, addf_apply, bias_at]
  simp only [Host.dotGeneral]
  rw [Sage.dotGeneral_plain dot_S50000x128_S128x128_S50000x128_1_0_0_1_n_n none _ rfl rfl rfl rfl rfl rfl,
    Sage.dotGeneral_plain dot_S50000x128_S128x128_S50000x128_1_0_0_1_n_n none _ rfl rfl rfl rfl rfl rfl]
  rfl

/-- The reference's mean of neighbours in the first layer is the shared function. -/
theorem agg_eq (x0 : (⟨S50000x128, .f32⟩ : BufTy).Contents (Elt Ideal)) (x1 : (⟨S2x600000, .i32⟩ : BufTy).Contents (Elt Ideal)) :
    val_main_v74 (F := Ideal) x0 x1 = Cert.KernelIdeal.Layer.agg x0 x1 := rfl

/-- The reference's first-layer result. -/
theorem c1_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v82 (F := Ideal) x0 x1 x2 x3 x4 = Cert.KernelIdeal.Layer.c1 x0 x1 x2 x3 x4 := by
  show addf (F := Ideal) (addf (F := Ideal) (Host.dotGeneral (F := Ideal) dot_S50000x128_S128x128_S50000x128_1_0_0_1_n_n none (val_main_v74 (F := Ideal) x0 x1) (transpose S128x128 [1, 0] x2 transposes_S128x128_S128x128_1_0))
        (broadcastInDim S50000x128 ![0, 1] bcast_S1x128_S50000x128_0_1 (broadcastInDim S1x128 ![1] bcast_S128_S1x128_1 x3)))
      (Host.dotGeneral (F := Ideal) dot_S50000x128_S128x128_S50000x128_1_0_0_1_n_n none x0 (transpose S128x128 [1, 0] x4 transposes_S128x128_S128x128_1_0)) = _
  rw [layer_eq, agg_eq]
  rfl

/-- The reference's first-layer activation is the positive part of its first-layer result. -/
theorem a1_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v83 (F := Ideal) x0 x1 x2 x3 x4 = Cert.KernelIdeal.Layer.a1 x0 x1 x2 x3 x4 := by
  funext j
  rw [val_main_v83_apply, val_main_call1_v0_apply, val_main_call1_cst_apply, c1_eq]
  show max _ (Ideal.ofBits .f32 0x00000000#32) = max _ 0
  rw [Ideal.ofBits_zero_f32]

/-- The reference's mean of neighbours in the second layer is the shared function of its activation. -/
theorem agg_eq' (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v101 (F := Ideal) x0 x1 x2 x3 x4 = Cert.KernelIdeal.Layer.agg (val_main_v83 (F := Ideal) x0 x1 x2 x3 x4) x1 := rfl

/-- The reference's second-layer result. -/
theorem c2_eq (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 x5 : (⟨S128x128, .f32⟩ : BufTy).Contents (Elt Ideal)) (x6 : (⟨S128, .f32⟩ : BufTy).Contents (Elt Ideal))
    (x7 : (⟨S128x128, .f32⟩ : BufTy).Contents (Elt Ideal)) :
    val_main_v109 (F := Ideal) x0 x1 x2 x3 x4 x5 x6 x7 = Cert.KernelIdeal.Layer.c2 x0 x1 x2 x3 x4 x5 x6 x7 := by
  show addf (F := Ideal) (addf (F := Ideal) (Host.dotGeneral (F := Ideal) dot_S50000x128_S128x128_S50000x128_1_0_0_1_n_n none (val_main_v101 (F := Ideal) x0 x1 x2 x3 x4) (transpose S128x128 [1, 0] x5 transposes_S128x128_S128x128_1_0))
        (broadcastInDim S50000x128 ![0, 1] bcast_S1x128_S50000x128_0_1 (broadcastInDim S1x128 ![1] bcast_S128_S1x128_1 x6)))
      (Host.dotGeneral (F := Ideal) dot_S50000x128_S128x128_S50000x128_1_0_0_1_n_n none (val_main_v83 (F := Ideal) x0 x1 x2 x3 x4) (transpose S128x128 [1, 0] x7 transposes_S128x128_S128x128_1_0)) = _
  rw [layer_eq, agg_eq', a1_eq]
  rfl

end Cert.ReferenceIdeal.RefValue

end
-- ==== Proof.lean ====
/-
  A two-layer graph convolution with mean aggregation: the kernel program against its host reference, over the
  extended reals.

  Both programs compute, for node features x, edges e, and per layer a left weight, a bias and a right weight,

      c1 = (agg x e) · w1lᵀ + x · w1rᵀ + b1,      a1 = max (c1, 0),      c2 = (agg a1 e) · w2lᵀ + a1 · w2rᵀ + b2,

  and return (x, c1, c2), where agg is the mean of the neighbours' rows along the edges.  The kernel program computes
  agg on the host and each layer's dense part in a pallas_call over 25 bands of 2000 rows; the reference computes
  everything on the host.  The two differ in three ways, none of which matters on the extended reals: the kernel narrows
  the operands of its matrix products (the identity there); its products run into a zero accumulator where the
  reference's contraction has none (both are the plain sum over the shared index); and the kernel adds the bias last
  where the reference adds it between the two products (addition is commutative and associative, infinite terms
  included, so no finiteness of the inputs is needed).  agg is the same chain of host operations in both programs and
  is carried as one function of its two operands.

  The frames of the two kernel programs are the generated ones; the reference's frame is its generated run with the
  results dropped; the idealization rewrote nothing, so preserves is trivial.
-/
import proofs.«147235_j59133109731936_1_alg».proof.Defs
import proofs.«147235_j59133109731936_1_alg».proof.Proof.Gen.Kernel
import proofs.«147235_j59133109731936_1_alg».proof.Proof.Gen.Kernel.Frame
import proofs.«147235_j59133109731936_1_alg».proof.Proof.Gen.KernelIdeal
import proofs.«147235_j59133109731936_1_alg».proof.Proof.Gen.KernelIdeal.Frame
import proofs.«147235_j59133109731936_1_alg».proof.Proof.Gen.ReferenceIdeal
import proofs.«147235_j59133109731936_1_alg».proof.Proof.Gen.ReferenceIdeal.Run
import proofs.«147235_j59133109731936_1_alg».proof.Proof.Gen.ReferenceIdeal.Read
import proofs.«147235_j59133109731936_1_alg».proof.Proof.Gen.Pre_finite_inputs
import proofs.«147235_j59133109731936_1_alg».proof.Proof.KernelRun
import proofs.«147235_j59133109731936_1_alg».proof.Proof.KernelValue
import proofs.«147235_j59133109731936_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its generated run, the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with (x, c1, c2) of their arguments, which agree. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.KernelIdeal.Layer.c1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.KernelIdeal.Layer.c2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c =>
      ⟨(h c).2.2.2.1, (h c).2.1.trans (Cert.KernelIdeal.KValue.out1 m ρ c), (h c).2.2.1.trans (Cert.KernelIdeal.KValue.out2 m ρ c), (h c).2.2.2⟩)
      (Cert.KernelIdeal.Rerun.run (F := Ideal) m ρ)
  · refine (θ_run Cert.ReferenceIdeal.defs _ _).mono (fun r h c => ?_) (Cert.ReferenceIdeal.Value.run (F := Ideal) m' ρ')
    obtain ⟨h0, h1, h2, hargs⟩ := h c
    obtain ⟨e0, e1, e2, e3, e4, e5, e6, e7⟩ := hagree c
    refine ⟨h0.trans e0, ?_, ?_, hargs⟩
    · refine h1.trans ((Cert.ReferenceIdeal.Read.val_main_v82_eq _ _ _ _ _).trans ?_)
      rw [Cert.ReferenceIdeal.RefValue.c1_eq, e0, e1, e2, e3, e4]
    · refine h2.trans ((Cert.ReferenceIdeal.Read.val_main_v109_eq m' c).trans ?_)
      rw [Cert.ReferenceIdeal.RefValue.c2_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
